-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S625000 32) (main_arg2 : IVec S625000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S10000x128 : Shape := ⟨2, ![10000, 128]⟩

abbrev nBuf : Space → Nat
  | .hbm => 21
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S128x128, .f32⟩
  | .hbm, ⟨19, _⟩ => ⟨S1x128, .f32⟩
  | .hbm, ⟨20, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Affine.lean ====
/-
  The dense step of a graph layer, as one function of three arrays.

  After message passing every node `p` (100000 of them) holds an aggregated feature row `h[p, ·]` of 128 channels.
  The dense step sends each row through one affine map: with the weight matrix laid out input channel first,
  `wT[k, q]` (128 × 128), and a bias `brow[q]`, the value at node `p` and output channel `q` is

      ∑ₖ h[p, k] · wT[k, q]  +  brow[q]

  over the extended reals. A row of the result depends on the same row of `h` only, which is why the rows may be
  computed in independent slabs. No distributivity or cancellation is involved anywhere below, so nothing here asks
  the entries to be finite.
-/
import Idealize.ShloMosaic.PureOps.Ideal
import Idealize.ShloMosaic.Lib.ValueIdx

noncomputable section

open scoped BigOperators
open Idealize.ShloMosaic Idealize.ShloMosaic.ValueIdx

namespace Cert.GraphLinear

/-- Node features: one row of 128 channels per node. -/
abbrev Nodes : Shape := ⟨2, ![100000, 128]⟩
/-- The weight matrix, input channel first. -/
abbrev Weights : Shape := ⟨2, ![128, 128]⟩

/-- The affine map at node `p`, output channel `q`: row `p` of `h` against column `q` of `wT`, plus the bias. -/
def affineAt (h : Nodes.Idx → EReal) (wT : Weights.Idx → EReal) (brow : Fin 128 → EReal)
    (p : Fin 100000) (q : Fin 128) : EReal :=
  (∑ k : Fin 128, h (ix2 p k) * wT (ix2 k q)) + brow q

/-- The whole result array. -/
def affine (h : Nodes.Idx → EReal) (wT : Weights.Idx → EReal) (brow : Fin 128 → EReal) : Nodes.Idx → EReal :=
  fun i => affineAt h wT brow (i 0) (i 1)

theorem affine_ix2 (h : Nodes.Idx → EReal) (wT : Weights.Idx → EReal) (brow : Fin 128 → EReal)
    (p : Fin 100000) (q : Fin 128) : affine h wT brow (ix2 p q) = affineAt h wT brow p q := rfl

/-- The value at `(p, q)` is determined by row `p` of the features: any 128 numbers that agree with that row give it. -/
theorem affineAt_of_row (h : Nodes.Idx → EReal) (wT : Weights.Idx → EReal) (brow : Fin 128 → EReal)
    (p : Fin 100000) (q : Fin 128) (row : Fin 128 → EReal) (hrow : ∀ k, row k = h (ix2 p k)) :
    (∑ k : Fin 128, row k * wT (ix2 k q)) + brow q = affineAt h wT brow p q := by
  unfold affineAt
  exact congrArg (· + brow q) (Finset.sum_congr rfl fun k _ => by rw [hrow k])

end Cert.GraphLinear

end
-- ==== Proof.SlabProduct.lean ====
/-
  One slab of the dense step. The kernel works on 10000 node rows at a time: it multiplies the slab `x0` (10000 × 128)
  by the weight matrix `x1` (128 × 128, input channel first), accumulating from zero, and adds the bias row `x2`
  (1 × 128) to every row. Read over the extended reals (where narrowing a number to a shorter format changes nothing,
  and a product accumulated from zero is the plain sum of the products), the stored value at row `p`, channel `q` is

      ∑ₖ x0[p, k] · x1[k, q]  +  x2[0, q].
-/
import proofs.«100343_j62285615726744_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.GraphLinear.Slab

open Cert.KernelIdeal Cert.KernelIdeal.Gen

/-! ## The product's index bookkeeping: which entries of the two operands meet at output `(p, q)`, term `k` -/

/-- The left operand is read in the output's row … -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … at the summation index; -/
theorem lhs_term (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- the right operand at the summation index … -/
theorem rhs_term (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
/-- … in the output's column. -/
theorem rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A slab times the weights, accumulated from zero, is the sum over the 128 input channels of the products. -/
theorem product_apply (a : FVec Ideal S10000x128 .bf16) (w : FVec Ideal S128x128 .bf16) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun ax => Fin.ext (by
    match ax with
    | ⟨0, _⟩ => exact lhs_row _ _
    | ⟨1, _⟩ => exact (lhs_term _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun ax => Fin.ext (by
    match ax with
    | ⟨0, _⟩ => exact (rhs_term _ _).trans hk
    | ⟨1, _⟩ => exact rhs_col _ _)
  rw [el, er]

/-- What the kernel stores for one slab, entry by entry. -/
theorem stored_apply (x0 : Vec Ideal S10000x128 .f32) (x1 : Vec Ideal S128x128 .f32) (x2 : Vec Ideal S1x128 .f32)
    (p : Fin 10000) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ _).trans ?_
  refine congrArg₂ (· + ·) ?_ ?_
  · refine (product_apply _ _ p q).trans ?_
    refine Finset.sum_congr rfl fun k _ => ?_
    simp only [truncf_apply, shapeCast_self]
  · rw [shapeCast_self]
    exact broadcastTo_1b_ab_apply x2 _ p q

end Cert.GraphLinear.Slab

end
-- ==== Proof.HostPrefix.lean ====
/-
  What the kernel's three operands hold when the kernel starts. Before the kernel, the program aggregates messages
  (it gathers the source node's feature row for every edge, a negative source id counted from the end, and adds each
  gathered row into its destination node's row of an all-zero array), transposes the weight matrix so that the input
  channel comes first, and views the bias as a one-row matrix. The kernel reads exactly these three arrays; the
  aggregation is kept as one unopened function of the inputs, since the other program applies the very same one.
-/
import proofs.«100343_j62285615726744_1_alg».proof.Proof.Gen.KernelIdeal.Frame
import Idealize.ShloMosaic.Lib.StableHlo.Run

noncomputable section

open Idealize.ShloMosaic Idealize.ShloMosaic.TcCoe Idealize.SL.Sem

namespace Cert.GraphLinear.Prefix

open Cert.KernelIdeal Cert.KernelIdeal.Gen

variable {F : FTy → Type} [FloatOps F]

/-- Message passing: for every edge the feature row of its source node (a negative id wraps around once), summed
    into the row of its destination node, starting from zeros. -/
def aggregated (x0 : (⟨S100000x128, .f32⟩ : BufTy).Contents (Elt F)) (x1 x2 : (⟨S625000, .i32⟩ : BufTy).Contents (Elt F)) :
    (⟨S100000x128, .f32⟩ : BufTy).Contents (Elt F) :=
  Host.scatterAdd scatter_S100000x128_S625000x1_S625000x128_1_0_0_1
    (broadcastInDim S100000x128 ![] bcast_S_S100000x128 (constant (F := F) S_ .f32 0x00000000#32))
    (broadcastInDim S625000x1 ![0] bcast_S625000_S625000x1_0 x2)
    (Host.gather gather_S100000x128_S625000x1_S625000x128_1_0_n_n_0_1_1128 x0
      (broadcastInDim S625000x1 ![0] bcast_S625000_S625000x1_0
        (select (cmpi .slt x1 (broadcastInDim S625000 ![] bcast_S_S625000 (constantI S_ 32 0#32)))
          (addi x1 (broadcastInDim S625000 ![] bcast_S_S625000 (constantI S_ 32 100000#32))) x1)))

variable (m : (ℓ : Loc nD τ sig) → Buf (Elt F) ℓ)

/-- The kernel's first operand is the aggregated features of the inputs. -/
theorem features_eq (c : Dev nD) :
    (V m c main_v9 : (⟨S100000x128, .f32⟩ : BufTy).Contents (Elt F))
      = aggregated (m ((c : Thread nD τ).loc main_arg0)) (m ((c : Thread nD τ).loc main_arg1)) (m ((c : Thread nD τ).loc main_arg2)) := by
  dsimp only [Gen.V, Gen.hostOps0]
  after_results
  rfl

/-- Its second operand is the weight matrix transposed. -/
theorem weights_eq (c : Dev nD) :
    (V m c main_v10 : (⟨S128x128, .f32⟩ : BufTy).Contents (Elt F))
      = transpose S128x128 [1, 0] (m ((c : Thread nD τ).loc main_arg3)) transposes_S128x128_S128x128_1_0 := by
  dsimp only [Gen.V, Gen.hostOps0]
  after_results <;> rfl

/-- Its third operand is the bias viewed as one row. -/
theorem bias_eq (c : Dev nD) :
    (V m c main_v11 : (⟨S1x128, .f32⟩ : BufTy).Contents (Elt F))
      = shapeCast S1x128 (m ((c : Thread nD τ).loc main_arg4)) shapeCasts_S128_S1x128 := by
  dsimp only [Gen.V, Gen.hostOps0]
  after_results
  rfl

end Cert.GraphLinear.Prefix

end
-- ==== Proof.KernelArray.lean ====
/-
  From slabs to the whole array. The kernel runs ten times; run `t` reads node rows `10000·t … 10000·t + 9999` of the
  aggregated features, all of the transposed weights and the bias row, and writes the same rows of the result. Each
  stored entry is the affine map of `Affine.lean` at that node (a result row depends on the same feature row only), the
  ten slabs together cover every row (row `r` lies in slab `r / 10000`), so after the last run the result array is the
  affine map of the three arrays the kernel was given.
-/
import proofs.«100343_j62285615726744_1_alg».proof.Proof.Gen.KernelIdeal.Value
import proofs.«100343_j62285615726744_1_alg».proof.Proof.Affine
import proofs.«100343_j62285615726744_1_alg».proof.Proof.SlabProduct
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.GraphLinear.Kernel

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- Where each operand's block sits at run `t`: the feature slab and the result slab at block row `t`, the weights
    and the bias always at their one block. Decided over the ten runs. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node a slab row stands for: row `p` of slab `t` is node `10000·t + p`. -/
def node (t : Fin cfg0.N) (p : Fin 10000) : Fin 100000 :=
  ⟨t.val * 10000 + p.val, by have := t.isLt; have hN : cfg0.N = 10 := N_0; have := p.isLt; omega⟩

/-- Row `p` of the feature slab at run `t` is the feature row of node `10000·t + p`. -/
theorem slab_read (c : Dev nD) (t : Fin cfg0.N) (p : Fin 10000) (k : Fin 128) :
    (iblk m c 0 t : Vec Ideal S10000x128 .f32) (ix2 p k) = (V m c main_v9 : S100000x128.Idx → EReal) (ix2 (node t p) k) := by
  obtain ⟨e0, e1, -⟩ := block_positions t
  unfold iblk
  rw [View.read_apply]
  show V m c main_v9 _ = V m c main_v9 _
  refine congrArg (V m c main_v9) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- Every run sees the whole transposed weight matrix. -/
theorem weights_read (c : Dev nD) (t : Fin cfg0.N) (k q : Fin 128) :
    (iblk m c 1 t : Vec Ideal S128x128 .f32) (ix2 k q) = (V m c main_v10 : S128x128.Idx → EReal) (ix2 k q) := by
  obtain ⟨-, -, e2, e3, -⟩ := block_positions t
  unfold iblk
  rw [View.read_apply]
  show V m c main_v10 _ = V m c main_v10 _
  refine congrArg (V m c main_v10) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Every run sees the whole bias row. -/
theorem bias_read (c : Dev nD) (t : Fin cfg0.N) (q : Fin 128) :
    (iblk m c 2 t : Vec Ideal S1x128 .f32) (ix2 (0 : Fin 1) q) = (V m c main_v11 : S1x128.Idx → EReal) (ix2 (0 : Fin 1) q) := by
  obtain ⟨-, -, -, -, e4, e5, -⟩ := block_positions t
  unfold iblk
  rw [View.read_apply]
  show V m c main_v11 _ = V m c main_v11 _
  refine congrArg (V m c main_v11) (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

/-- The result the kernel is to leave: the affine map of the three arrays it was given. -/
abbrev target (c : Dev nD) : S100000x128.Idx → EReal :=
  affine (V m c main_v9) (V m c main_v10) (fun q => (V m c main_v11 : S1x128.Idx → EReal) (ix2 (0 : Fin 1) q))

/-- What run `t` stores at row `p`, channel `q` of its slab is the target at node `10000·t + p`. -/
theorem stored_at (c : Dev nD) (t : Fin cfg0.N) (p : Fin 10000) (q : Fin 128) :
    k0_pay1 (F := Ideal) (iblk m c 0 t) (iblk m c 1 t) (iblk m c 2 t) (ix2 p q) = target m c (ix2 (node t p) q) := by
  refine (Slab.stored_apply (iblk m c 0 t) (iblk m c 1 t) (iblk m c 2 t) p q).trans ?_
  show _ = affineAt (V m c main_v9) (V m c main_v10) (fun q => (V m c main_v11 : S1x128.Idx → EReal) (ix2 (0 : Fin 1) q)) (node t p) q
  unfold affineAt
  refine congrArg₂ (· + ·) (Finset.sum_congr rfl fun k _ => ?_) (bias_read m c t q)
  exact congrArg₂ (· * ·) (slab_read m c t p k) (weights_read m c t k q)

/-- Where entry `(p, q)` of the result slab at run `t` lands in the result array. -/
theorem result_pos (t : Fin cfg0.N) (p : Fin 10000) (q : Fin 128) :
    ((cfg0.win 3).blk t).view.emb (ix2 p q) = (ix2 (node t p) q : S100000x128.Idx) := by
  obtain ⟨-, -, -, -, -, -, e6, e7⟩ := block_positions t
  funext a; apply Fin.ext
  match a with
  | ⟨0, _⟩ => show win0_3.index t (0 : Fin 2) * 10000 + 1 * p.val = t.val * 10000 + p.val; rw [e6]; omega
  | ⟨1, _⟩ => show win0_3.index t (1 : Fin 2) * 128 + 1 * q.val = q.val; rw [e7]; omega

/-- WHAT RUN `t` WRITES BACK is slab `t` of the target. -/
theorem flushed_eq (c : Dev nD) (t : Fin cfg0.N) :
    (dats m 0 c).flushed 3 t = ((cfg0.win 3).blk t).view.read (Elt Ideal) (target m c) := by
  rw [flushed3]
  unfold out0_3
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k0_pay1 (F := Ideal) (iblk m c 0 t) (iblk m c 1 t) (iblk m c 2 t) (ix2 p q) = target m c (((cfg0.win 3).blk t).view.emb (ix2 p q))
  rw [result_pos t p q]
  exact stored_at m c t p q

/-- An index of the result array is in run `t`'s slab iff each coordinate is in the slab's range on its axis. -/
theorem mem_slab (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v12).slice (win0_3.rect t)).set ↔ _
  rw [View.set_slice_whole, Rect.mem_set_unit]
  exact Iff.rfl

/-- Every node's row is in some run's slab: node `r` in slab `r / 10000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  obtain ⟨-, -, -, -, -, -, e6, e7⟩ := block_positions ⟨(i 0).val / 10000, by rw [hN]; omega⟩
  rw [mem_slab]
  intro a
  match a with
  | ⟨0, _⟩ =>
    show win0_3.index _ (0 : Fin 2) * 10000 ≤ (i 0).val ∧ (i 0).val < win0_3.index _ (0 : Fin 2) * 10000 + 10000
    rw [e6]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e7]; omega

/-- THE RESULT ARRAY after the last run is the target. -/
theorem final (c : Dev nD) : (dats m 0 c).arrAt 3 cfg0.N = target m c :=
  (dats m 0 c).arrAt_eq_of_cover 3 (target m c) (fun t _ => flushed_eq m c t) covered

/-- The kernel's run, read: the result array ends at the target, the arguments unchanged. -/
theorem run : θ_run defs (onTc (τ := τ) (main (F := Ideal))) ⟨m, fun _ => 0, ρ⟩ fun r => ∀ c : Dev nD,
      r.2.mem ((c : Thread nD τ).loc main_v12) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.GraphLinear.Kernel

end
-- ==== Proof.RefAffine.lean ====
/-
  The reference computes the dense step in one piece: one product of the whole 100000 × 128 feature array with the
  transposed weights, then the bias broadcast over the rows and added. Entry by entry that is the affine map of
  `Affine.lean` applied to the reference's own feature array, its transposed weights and its bias.
-/
import proofs.«100343_j62285615726744_1_alg».proof.Proof.Gen.ReferenceIdeal.Read
import proofs.«100343_j62285615726744_1_alg».proof.Proof.Affine

noncomputable section

open scoped BigOperators
open Idealize.ShloMosaic Idealize.ShloMosaic.ValueIdx

namespace Cert.GraphLinear.Ref

open Cert.ReferenceIdeal Cert.ReferenceIdeal.Read

/-- The reference's result is the affine map of the aggregated features (its stage `%9`), the transposed weights
    (its stage `%10`) and the bias: at `(p, q)` the product contributes `∑ₖ h[p, k] · wT[k, q]` and the two broadcasts
    of the bias deliver `b[q]`. -/
theorem result_eq (x0 : (⟨S100000x128, .f32⟩ : BufTy).Contents (Elt Ideal)) (x1 x2 : (⟨S625000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4
      = affine (val_main_v9 (F := Ideal) x0 x1 x2) (val_main_v10 (F := Ideal) x3) (fun q => x4 (ix1 q)) := by
  funext i
  obtain ⟨p, q, rfl⟩ : ∃ (p : Fin 100000) (q : Fin 128), i = ix2 p q := ⟨i 0, i 1, eq_ix2 i⟩
  rw [val_main_v14_apply, val_main_v11_apply, val_main_v13_apply, val_main_v12_apply, affine_ix2]
  unfold affineAt
  have e1 : ∀ k : Fin 128, lidx_main_v11 (ix2 p q) k = ix2 p k := fun k => funext fun a => Fin.ext (by
    match a with
    | ⟨0, _⟩ => rfl
    | ⟨1, _⟩ => rfl)
  have e2 : ∀ k : Fin 128, ridx_main_v11 (ix2 p q) k = ix2 k q := fun k => funext fun a => Fin.ext (by
    match a with
    | ⟨0, _⟩ => rfl
    | ⟨1, _⟩ => rfl)
  have e3 : idx_main_v12 (idx_main_v13 (ix2 p q)) = ix1 q := funext fun a => Fin.ext (by
    match a with
    | ⟨0, _⟩ => rfl)
  simp only [e1, e2, e3, Ideal.addf_def]

end Cert.GraphLinear.Ref

end
-- ==== Proof.lean ====
/-
  A graph layer: messages are aggregated (each edge carries its source node's feature row, the rows arriving at a
  node are summed), and every node's aggregated row `h[p, ·]` then goes through the affine map
  `∑ₖ h[p, k] · W[q, k] + b[q]`.

  Both programs aggregate in the same way, by the same operations on the same inputs, so the aggregated array is one
  and the same function of the inputs on both sides and is never opened here. They differ in the dense step only: one
  program multiplies the node rows by the transposed weights in ten slabs of 10000 rows, each product accumulated from
  zero, and adds the bias viewed as one row; the other forms the one product of all 100000 rows with the transposed
  weights and adds the bias broadcast over the rows. Over the extended reals a product accumulated from zero is the
  plain sum of the products, narrowing a number's format changes nothing, and a result row depends on the same feature
  row only; so both arrays are the affine map of `Proof/Affine.lean`, entry by entry, and equal. The equality is termwise
  (the same sum of the same products plus the same bias), so no entry needs to be finite: the precondition is not used.

  `Proof/SlabProduct.lean`: one slab's stored entry. `Proof/HostPrefix.lean`: what the three arrays the slabs are cut from
  hold. `Proof/KernelArray.lean`: the ten slabs make up the whole array. `Proof/RefAffine.lean`: the one-piece product
  is the affine map. Below: the two sides' arrays meet, and the claims.
-/
import proofs.«100343_j62285615726744_1_alg».proof.Defs
import proofs.«100343_j62285615726744_1_alg».proof.Proof.Gen.Kernel
import proofs.«100343_j62285615726744_1_alg».proof.Proof.Gen.Kernel.Skeleton
import proofs.«100343_j62285615726744_1_alg».proof.Proof.Gen.Kernel.Launch
import proofs.«100343_j62285615726744_1_alg».proof.Proof.Gen.Kernel.Points
import proofs.«100343_j62285615726744_1_alg».proof.Proof.Gen.Kernel.Frame
import proofs.«100343_j62285615726744_1_alg».proof.Proof.Gen.KernelIdeal
import proofs.«100343_j62285615726744_1_alg».proof.Proof.Gen.KernelIdeal.Skeleton
import proofs.«100343_j62285615726744_1_alg».proof.Proof.Gen.KernelIdeal.Launch
import proofs.«100343_j62285615726744_1_alg».proof.Proof.Gen.KernelIdeal.Points
import proofs.«100343_j62285615726744_1_alg».proof.Proof.Gen.KernelIdeal.Frame
import proofs.«100343_j62285615726744_1_alg».proof.Proof.Gen.ReferenceIdeal
import proofs.«100343_j62285615726744_1_alg».proof.Proof.Gen.Pre_finite_inputs
import proofs.«100343_j62285615726744_1_alg».proof.Proof.Gen.KernelIdeal.Value
import proofs.«100343_j62285615726744_1_alg».proof.Proof.Gen.ReferenceIdeal.Run
import proofs.«100343_j62285615726744_1_alg».proof.Proof.Gen.ReferenceIdeal.Read
import proofs.«100343_j62285615726744_1_alg».proof.Proof.Affine
import proofs.«100343_j62285615726744_1_alg».proof.Proof.SlabProduct
import proofs.«100343_j62285615726744_1_alg».proof.Proof.HostPrefix
import proofs.«100343_j62285615726744_1_alg».proof.Proof.KernelArray
import proofs.«100343_j62285615726744_1_alg».proof.Proof.RefAffine
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Cert.GraphLinear

/-- The aggregation, spelt with either program's shape records, is one function. -/
theorem aggregated_eq (x0 : (⟨Cert.KernelIdeal.S100000x128, .f32⟩ : BufTy).Contents (Elt Ideal))
    (x1 x2 : (⟨Cert.KernelIdeal.S625000, .i32⟩ : BufTy).Contents (Elt Ideal)) :
    Prefix.aggregated (F := Ideal) x0 x1 x2 = Cert.ReferenceIdeal.Read.val_main_v9 (F := Ideal) x0 x1 x2 := rfl

/-- So is the transposition of the weights. -/
theorem transposed_eq (x3 : (⟨Cert.KernelIdeal.S128x128, .f32⟩ : BufTy).Contents (Elt Ideal)) :
    transpose Cert.KernelIdeal.S128x128 [1, 0] x3 Cert.KernelIdeal.Gen.transposes_S128x128_S128x128_1_0
      = Cert.ReferenceIdeal.Read.val_main_v10 (F := Ideal) x3 := rfl

/-- The bias viewed as one row holds, in column `q`, the bias of channel `q`. -/
theorem bias_row_eq (x4 : (⟨Cert.KernelIdeal.S128, .f32⟩ : BufTy).Contents (Elt Ideal)) (q : Fin 128) :
    shapeCast Cert.KernelIdeal.S1x128 x4 Cert.KernelIdeal.Gen.shapeCasts_S128_S1x128 (ix2 (0 : Fin 1) q) = x4 (ix1 q) :=
  shapeCast_a_1a_apply x4 _ 0 q

/-- The array the slabs make up is the array the one-piece product makes: the same affine map of the same aggregated
    features, transposed weights and bias. -/
theorem target_eq (m : (ℓ : Loc Cert.KernelIdeal.nD Cert.KernelIdeal.τ Cert.KernelIdeal.sig) → Buf (Elt Ideal) ℓ) (c : Dev Cert.KernelIdeal.nD) :
    Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Kernel.target m c := by
  rw [Ref.result_eq]
  show _ = affine (Cert.KernelIdeal.Gen.V m c Cert.KernelIdeal.main_v9) (Cert.KernelIdeal.Gen.V m c Cert.KernelIdeal.main_v10)
    (fun q => (Cert.KernelIdeal.Gen.V m c Cert.KernelIdeal.main_v11 : Cert.KernelIdeal.S1x128.Idx → EReal) (ix2 (0 : Fin 1) q))
  rw [Prefix.features_eq m c, Prefix.weights_eq m c, Prefix.bias_eq m c, aggregated_eq, transposed_eq]
  exact congrArg _ (funext fun q => (bias_row_eq _ q).symm)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, both programs end with the affine map of the aggregated features. -/
theorem algebraic : Cert.algebraic_KernelIdeal_ReferenceIdeal := by
  intro m ρ m' ρ' _ hagree
  refine ⟨fun c => Kernel.target m c, Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v14_eq]
  exact target_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
